-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S32768x32 : Shape := ⟨2, ![32768, 32]⟩
abbrev S1x32 : Shape := ⟨2, ![1, 32]⟩
abbrev S4096x4096 : Shape := ⟨2, ![4096, 4096]⟩
abbrev S4096x32768 : Shape := ⟨2, ![4096, 32768]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S1x32 : S_.BroadcastsInDim S1x32 (![] : Fin 0 → Fin S1x32.rank)
  reducesTo_S1x32_S_d0_1 : S1x32.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x32768 : S_.BroadcastsInDim S4096x32768 (![] : Fin 0 → Fin S4096x32768.rank)
  reducesTo_S4096x32768_S_d0_1 : S4096x32768.ReducesTo [0, 1] S_

variable [Facts]

def fn_part1 {F : FTy → Type} [FloatOps F] (main_arg4 : FVec F S4096x32768 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x32768 .f32 := Host.absf main_arg4
  let main_cst_6 : FVec F S_ .f32 := constant S_ .f32 0x7F800000#32
  let main_v20 : FVec F S4096x32768 .f32 := broadcastInDim S4096x32768 ![] bcast_S_S4096x32768 main_cst_6
  let main_v21 : IVec S4096x32768 1 := cmpf .olt main_v19 main_v20
  let main_c_7 : IVec S_ 1 := constantI S_ 1 1#1
  let main_v22 : IVec S_ 1 := (fun x v => Host.reduce IntOp.andi x v reducesTo_S4096x32768_S_d0_1 h_S_) main_v21 main_c_7
  let main_v23 : IVec S_ 1 := andi main_v18 main_v22
  main_v23

def fn {F : FTy → Type} [FloatOps F] (main_arg0 : FVec F S4096x32 .f32) (main_arg1 : FVec F S32768x32 .f32) (main_arg2 : FVec F S1x32 .f32) (main_arg3 : FVec F S4096x4096 .f32) (main_arg4 : FVec F S4096x32768 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S32768x32 .f32 := Host.absf main_arg1
  let main_cst_0 : FVec F S_ .f32 := constant S_ .f32 0x7F800000#32
  let main_v5 : FVec F S32768x32 .f32 := broadcastInDim S32768x32 ![] bcast_S_S32768x32 main_cst_0
  let main_v6 : IVec S32768x32 1 := cmpf .olt main_v4 main_v5
  let main_c_1 : IVec S_ 1 := constantI S_ 1 1#1
  let main_v7 : IVec S_ 1 := (fun x v => Host.reduce IntOp.andi x v reducesTo_S32768x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x32 : Shape := ⟨2, ![4096, 32]⟩
abbrev S32768x32 : Shape := ⟨2, ![32768, 32]⟩
abbrev S1x32 : Shape := ⟨2, ![1, 32]⟩
abbrev S4096x4096 : Shape := ⟨2, ![4096, 4096]⟩
abbrev S4096x32768 : Shape := ⟨2, ![4096, 32768]⟩
abbrev S512x4096 : Shape := ⟨2, ![512, 4096]⟩
abbrev S512x32 : Shape := ⟨2, ![512, 32]⟩

abbrev nBuf : Space → Nat
  | .hbm => 6
  | .vmem => 9
  | .smem => 0
  | _ => 0

abbrev bufTy : (tb : Table) → Fin (tcTables nBuf tb) → BufTy
  | .hbm, ⟨0, _⟩ => ⟨S4096x32, .f32⟩
  | .hbm, ⟨1, _⟩ => ⟨S32768x32, .f32⟩
  | .hbm, ⟨2, _⟩ => ⟨S1x32, .f32⟩
  | .hbm, ⟨3, _⟩ => ⟨S4096x4096, .f32⟩
  | .hbm, ⟨4, _⟩ => ⟨S4096x32768, .f32⟩
  | .hbm, ⟨5, _⟩ => ⟨S4096x32, .f32⟩
  | .local _ .vmem, ⟨0, _⟩ => ⟨S512x4096, .f32⟩
  | .local _ .vmem, ⟨1, _⟩ => ⟨S512x4096, .f32⟩
  | .local _ .vmem, ⟨2, _⟩ => ⟨S4096x32, .f32⟩
  | .local _ .vmem, ⟨3, _⟩ => ⟨S4096x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S512x32, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  dot_S512x4096_S4096x32_S512x32_1_0_0_1_n_n_wf : DotDims.WF S512x4096 S4096x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x32768.size a
  hwx0_0 : ∀ i : grid0.Coords, EltTy.bits .f32 = 32 ∨ (Rect.block (s := S4096x32768) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S32768x32.size a
  hwx0_1 : ∀ i : grid0.Coords, EltTy.bits .f32 = 32 ∨ (Rect.block (s := S32768x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)

variable [Facts₀]

def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf

abbrev win0_0 : Pipeline.Window sig grid0 :=
  Pipeline.Window.ofSpec (Memref.whole main_arg4) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32 : Shape := ⟨2, ![4096, 32]⟩
abbrev S32768x32 : Shape := ⟨2, ![32768, 32]⟩
abbrev S1x32 : Shape := ⟨2, ![1, 32]⟩
abbrev S4096x4096 : Shape := ⟨2, ![4096, 4096]⟩
abbrev S4096x32768 : Shape := ⟨2, ![4096, 32768]⟩

abbrev nBuf : Space → Nat
  | .hbm => 7
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S32768x32, .f32⟩
  | .hbm, ⟨2, _⟩ => ⟨S1x32, .f32⟩
  | .hbm, ⟨3, _⟩ => ⟨S4096x4096, .f32⟩
  | .hbm, ⟨4, _⟩ => ⟨S4096x32768, .f32⟩
  | .hbm, ⟨5, _⟩ => ⟨S4096x32, .f32⟩
  | .hbm, ⟨6, _⟩ => ⟨S4096x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  dot_S4096x32768_S32768x32_S4096x32_1_0_0_1_n_n_wf : DotDims.WF S4096x32768 S32768x32 S4096x32 [1] [0] [0] [1] [] []

variable [Facts₀]

def dot_S4096x32768_S32768x32_S4096x32_1_0_0_1_n_n : DotDims S4096x32768 S32768x32 S4096x32 where
  lhsContracting := [1]
  rhsContracting := [0]
  lhsNonContracting := [0]
  rhsNonContracting := [1]
  lhsBatch := []
  rhsBatch := []
  wf := dot_S4096x32768_S32768x32_S4096x32_1_0_0_1_n_n_wf

class Facts : Prop extends Facts₀ where

variable [Facts]
-- ==== Proof.PoolPayload.lean ====
/-
  The body's three stored values read at an entry, over the extended reals. The reset stores zero. The update stores,
  at row `p` and feature `q` of the 512 × 32 accumulator tile, what the accumulator held there plus the product of the
  incidence tile's row `p` with the edge-feature tile's column `q`, a sum over the tile's 4096 edges (the narrowing of
  both tiles to bf16 before the product is the identity on extended reals, and the product unit's own accumulator is
  the zero splat). The epilogue stores the vertex tile plus the accumulator, entry by entry.
-/
import proofs.«135969_j1529008357760_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PoolBody

open Cert.KernelIdeal Cert.KernelIdeal.Gen Idealize.ShloMosaic Idealize.ShloMosaic.ValueIdx

/-! ## The tile product's operand indices -/

theorem tile_lhs_0 (i : S512x32.Idx) (k : dot_S512x4096_S4096x32_S512x32_1_0_0_1_n_n.contr.Idx) :
    (dot_S512x4096_S4096x32_S512x32_1_0_0_1_n_n.lhsIdx i k 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl

theorem tile_lhs_1 (i : S512x32.Idx) (k : dot_S512x4096_S4096x32_S512x32_1_0_0_1_n_n.contr.Idx) :
    (dot_S512x4096_S4096x32_S512x32_1_0_0_1_n_n.lhsIdx i k 1).val = (k ⟨0, by decide⟩).val :=
  dot_S512x4096_S4096x32_S512x32_1_0_0_1_n_n.lhsIdx_val_of_single rfl i k

theorem tile_rhs_0 (i : S512x32.Idx) (k : dot_S512x4096_S4096x32_S512x32_1_0_0_1_n_n.contr.Idx) :
    (dot_S512x4096_S4096x32_S512x32_1_0_0_1_n_n.rhsIdx i k 0).val = (k ⟨0, by decide⟩).val :=
  dot_S512x4096_S4096x32_S512x32_1_0_0_1_n_n.rhsIdx_val_of_single rfl i k

theorem tile_rhs_1 (i : S512x32.Idx) (k : dot_S512x4096_S4096x32_S512x32_1_0_0_1_n_n.contr.Idx) :
    (dot_S512x4096_S4096x32_S512x32_1_0_0_1_n_n.rhsIdx i k 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- The product of a 512 × 4096 tile with a 4096 × 32 tile into the zero splat, at row `p` and column `q`: the sum
    over the 4096 shared coordinates. -/
theorem tile_matmul (l : FVec Ideal S512x4096 .bf16) (r : FVec Ideal S4096x32 .bf16) (p : Fin 512) (q : Fin 32) :
    FloatOps.matmul dot_S512x4096_S4096x32_S512x32_1_0_0_1_n_n none l r (constant S512x32 .f32 0x00000000#32) (ix2 p q)
      = ∑ k : Fin 4096, l (ix2 p k) * r (ix2 k q) := by
  rw [Ideal.matmul_constant_zero_apply, ← Equiv.sum_comp (contrEquiv1 dot_S512x4096_S4096x32_S512x32_1_0_0_1_n_n 4096 rfl rfl).symm]
  refine Finset.sum_congr rfl fun k _ => ?_
  have hk := contrEquiv1_symm_val dot_S512x4096_S4096x32_S512x32_1_0_0_1_n_n 4096 rfl rfl k
  have el : dot_S512x4096_S4096x32_S512x32_1_0_0_1_n_n.lhsIdx (ix2 p q) ((contrEquiv1 dot_S512x4096_S4096x32_S512x32_1_0_0_1_n_n 4096 rfl rfl).symm k) = ix2 p k := funext fun a => Fin.ext (by
    match a with
    | ⟨0, _⟩ => exact tile_lhs_0 _ _
    | ⟨1, _⟩ => exact (tile_lhs_1 _ _).trans hk)
  have er : dot_S512x4096_S4096x32_S512x32_1_0_0_1_n_n.rhsIdx (ix2 p q) ((contrEquiv1 dot_S512x4096_S4096x32_S512x32_1_0_0_1_n_n 4096 rfl rfl).symm k) = ix2 k q := funext fun a => Fin.ext (by
    match a with
    | ⟨0, _⟩ => exact (tile_rhs_0 _ _).trans hk
    | ⟨1, _⟩ => exact tile_rhs_1 _ _)
  rw [el, er]

/-! ## The stored values at an entry -/

/-- The reset stores zero everywhere. -/
theorem reset_apply (j : S512x32.Idx) : k0_pay1 (F := Ideal) j = 0 := by
  unfold k0_pay1
  rw [shapeCast_self]
  exact Ideal.ofBits_zero_f32

/-- The update at row `p`, feature `q`: the accumulator there plus the tile product there. -/
theorem update_apply (x0 : Vec Ideal S512x4096 .f32) (x1 : Vec Ideal S4096x32 .f32) (acc : Vec Ideal S512x32 .f32)
    (p : Fin 512) (q : Fin 32) :
    k0_pay2 (F := Ideal) x0 x1 acc (ix2 p q) = acc (ix2 p q) + ∑ k : Fin 4096, x0 (ix2 p k) * x1 (ix2 k q) := by
  unfold k0_pay2
  rw [shapeCast_self]
  exact congrArg (acc (ix2 p q) + ·) (tile_matmul _ _ p q)

/-- The epilogue's value: vertex tile plus accumulator. -/
theorem epilogue_apply (v acc : Vec Ideal S512x32 .f32) (j : S512x32.Idx) :
    k0_pay3 (F := Ideal) v acc j = v j + acc j := rfl

end Cert.KernelIdeal.PoolBody

end
-- ==== Proof.PoolPieces.lean ====
/-
  What one run of the body leaves behind, as values. Each case of the body ends with covering stores of whole tiles, so
  what a buffer holds afterwards is the last such store's value with the loads it was computed from read back: a
  resetting point leaves the update of the zero tile in the accumulator; every later point leaves the update of what
  the accumulator held; and the last point of a row of tiles also leaves, in the output tile, the vertex tile plus the
  accumulator it has just updated. All of this holds for any float instance.
-/
import proofs.«135969_j1529008357760_1_alg».proof.Proof.Gen.KernelIdeal.Frame
import Idealize.ShloMosaic.Lib.Pipeline.Value
import Idealize.ShloMosaic.Lib.Tactic

noncomputable section

namespace Cert.KernelIdeal.PoolPieces

open Cert.KernelIdeal Cert.KernelIdeal.Gen Idealize.ShloMosaic Idealize.ShloMosaic.TcCoe Idealize.SL.Sem

variable {F : FTy → Type} [FloatOps F]

/-- Every access of the body starts at the origin of its buffer. -/
theorem hz : (![0, 0] : Fin 2 → Nat) = fun _ => 0 := funext fun a => by fin_cases a <;> rfl

/-- At a resetting point the accumulator ends at the update of the zero tile it has just been set to. -/
theorem acc_reset (c : Dev nD) (i : grid0.Coords) (arg2 : Memref sig .tc .vmem S512x4096 .f32) (harg2 : arg2.IsWhole) (arg3 : Memref sig .tc .vmem S4096x32 .f32) (harg3 : arg3.IsWhole) (arg4 : Memref sig .tc .vmem S512x32 .f32) (harg4 : arg4.IsWhole) (arg5 : Memref sig .tc .vmem S512x32 .f32) (harg5 : arg5.IsWhole) (arg6 : Memref sig .tc .vmem S512x32 .f32) (harg6 : arg6.IsWhole) (hc0 : cond0_0 i) (hc1 : ¬cond0_1 i)
    (x0 : Vec F S512x4096 .f32) (x1 : Vec F S4096x32 .f32) (x2 : Vec F S512x32 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x32) hz, View.readCov_unit_zero (S := S512x32) _ hz]
  simp only [View.readAt_eq_ld, harg2.read_unread, harg3.read_unread, harg4.read_unread, harg6.read_unread,
    View.ld_unit_zero (S := S512x4096) hz, View.ld_unit_zero (S := S4096x32) hz, View.ld_unit_zero (S := S512x32) hz]

/-- At a middle point the accumulator ends at the update of what it held. -/
theorem acc_step (c : Dev nD) (i : grid0.Coords) (arg2 : Memref sig .tc .vmem S512x4096 .f32) (harg2 : arg2.IsWhole) (arg3 : Memref sig .tc .vmem S4096x32 .f32) (harg3 : arg3.IsWhole) (arg4 : Memref sig .tc .vmem S512x32 .f32) (harg4 : arg4.IsWhole) (arg5 : Memref sig .tc .vmem S512x32 .f32) (harg5 : arg5.IsWhole) (arg6 : Memref sig .tc .vmem S512x32 .f32) (harg6 : arg6.IsWhole) (hc0 : ¬cond0_0 i) (hc1 : ¬cond0_1 i)
    (x0 : Vec F S512x4096 .f32) (x1 : Vec F S4096x32 .f32) (x2 : Vec F S512x32 .f32) (xs0 : Vec F S512x32 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S512x4096) hz, View.ld_unit_zero (S := S4096x32) hz, View.ld_unit_zero (S := S512x32) hz]

/-- At the last point of a row of tiles the accumulator ends at the update of what it held, as at a middle point. -/
theorem acc_last (c : Dev nD) (i : grid0.Coords) (arg2 : Memref sig .tc .vmem S512x4096 .f32) (harg2 : arg2.IsWhole) (arg3 : Memref sig .tc .vmem S4096x32 .f32) (harg3 : arg3.IsWhole) (arg4 : Memref sig .tc .vmem S512x32 .f32) (harg4 : arg4.IsWhole) (arg5 : Memref sig .tc .vmem S512x32 .f32) (harg5 : arg5.IsWhole) (arg6 : Memref sig .tc .vmem S512x32 .f32) (harg6 : arg6.IsWhole) (hc0 : ¬cond0_0 i) (hc1 : cond0_1 i)
    (x0 : Vec F S512x4096 .f32) (x1 : Vec F S4096x32 .f32) (x2 : Vec F S512x32 .f32) (xs0 : Vec F S512x32 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x4096) hz, View.ld_unit_zero (S := S4096x32) hz, View.ld_unit_zero (S := S512x32) hz]

/-- … and the output tile ends at the vertex tile plus that updated accumulator. -/
theorem out_last (c : Dev nD) (i : grid0.Coords) (arg2 : Memref sig .tc .vmem S512x4096 .f32) (harg2 : arg2.IsWhole) (arg3 : Memref sig .tc .vmem S4096x32 .f32) (harg3 : arg3.IsWhole) (arg4 : Memref sig .tc .vmem S512x32 .f32) (harg4 : arg4.IsWhole) (arg5 : Memref sig .tc .vmem S512x32 .f32) (harg5 : arg5.IsWhole) (arg6 : Memref sig .tc .vmem S512x32 .f32) (harg6 : arg6.IsWhole) (hc0 : ¬cond0_0 i) (hc1 : cond0_1 i)
    (x0 : Vec F S512x4096 .f32) (x1 : Vec F S4096x32 .f32) (x2 : Vec F S512x32 .f32) (xs0 : Vec F S512x32 .f32) :
    out0_C_3 c i arg2 harg2 arg3 harg3 arg4 harg4 arg5 harg5 arg6 harg6 hc0 hc1 x0 x1 x2 xs0 = k0_pay3 x2 (k0_pay2 x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S512x4096) hz, View.ld_unit_zero (S := S4096x32) hz, View.ld_unit_zero (S := S512x32) hz,
    View.readCov_unit_zero (S := S512x32) _ hz]

end Cert.KernelIdeal.PoolPieces

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.PoolSpec.lean ====
/-
  Pooling edge features onto vertices: the result at vertex `r`, feature `q` is `v r q + Σ_K a r K · e K q`, the
  incidence matrix `a` (4096 × 32768) times the edge features `e` (32768 × 32) added to the vertex features `v`
  (4096 × 32). This module states that function of the three arrays over the extended reals, and the one fact about
  sums that a reduction taken in eight tiles of 4096 edges needs: the eight partial sums add up to the whole sum
  (extended-real addition is commutative and associative, so no finiteness enters).
-/
import proofs.«135969_j1529008357760_1_alg».proof.Proof.LibBlockSum
import Idealize.ShloMosaic.Lib.ValueIdx
import Idealize.ShloMosaic.PureOps.Ideal

noncomputable section

namespace Cert.Pool

open Idealize.ShloMosaic Idealize.ShloMosaic.ValueIdx

/-- The pooled vertex features: entry `(r, q)` is `v r q + Σ_K a r K · e K q`. -/
def pooled (v : (⟨2, ![4096, 32]⟩ : Shape).Idx → EReal) (e : (⟨2, ![32768, 32]⟩ : Shape).Idx → EReal)
    (a : (⟨2, ![4096, 32768]⟩ : Shape).Idx → EReal) : (⟨2, ![4096, 32]⟩ : Shape).Idx → EReal :=
  fun i => v i + ∑ K : Fin 32768, a (ix2 (i 0) K) * e (ix2 K (i 1))

/-- Edge `k` of tile `s`, among the 32768 edges cut into eight consecutive tiles of 4096: edge `4096 s + k`. -/
abbrev edge (s : Fin 8) (k : Fin 4096) : Fin 32768 :=
  Cert.LibBlockSum.blockIdx (B := 8) (R := 4096) (N := 32768) (by norm_num) s k

theorem edge_val (s : Fin 8) (k : Fin 4096) : (edge s k).val = 4096 * s.val + k.val := rfl

/-- A sum over all edges is the sum over the eight tiles of each tile's partial sum. -/
theorem sum_edges {M : Type*} [AddCommMonoid M] (f : Fin 32768 → M) :
    ∑ K : Fin 32768, f K = ∑ s : Fin 8, ∑ k : Fin 4096, f (edge s k) :=
  Cert.LibBlockSum.sum_blocks (B := 8) (R := 4096) (by norm_num) f

/-- The same with the tiles counted by a natural number below eight, as a fold over consecutive grid points counts
    them: `g s` is tile `s`'s partial sum whenever `s < 8`. -/
theorem sum_edges_range {M : Type*} [AddCommMonoid M] (f : Fin 32768 → M) (g : ℕ → M)
    (hg : ∀ s : Fin 8, g s.val = ∑ k : Fin 4096, f (edge s k)) :
    ∑ s ∈ Finset.range 8, g s = ∑ K : Fin 32768, f K := by
  rw [sum_edges, Finset.sum_range]
  exact Finset.sum_congr rfl fun s _ => hg s

end Cert.Pool

end
-- ==== Proof.PoolBlocks.lean ====
/-
  Where each tile sits in its array. The grid is 8 rows of tiles by 8 tiles of edges, walked row by row: point `n`
  works on vertex rows `512 (n / 8) … 512 (n / 8) + 511` and on edges `4096 (n % 8) … 4096 (n % 8) + 4095`. So the
  incidence tile's entry `(p, k)` is the incidence matrix at row `512 (n / 8) + p`, edge `4096 (n % 8) + k`; the
  edge-feature tile's entry `(k, q)` is the edge features at that edge, feature `q`; the vertex tile's entry `(p, q)`
  is the vertex features at that row, feature `q`; and the output tile goes back to those same rows.
-/
import proofs.«135969_j1529008357760_1_alg».proof.Proof.Gen.KernelIdeal.Frame
import proofs.«135969_j1529008357760_1_alg».proof.Proof.PoolSpec
import Idealize.ShloMosaic.Lib.ValueIdx
import Idealize.ShloMosaic.Lib.Pipeline.Value

noncomputable section

namespace Cert.KernelIdeal.PoolBlocks

open Cert.KernelIdeal Cert.KernelIdeal.Gen Idealize.ShloMosaic Idealize.ShloMosaic.TcCoe Idealize.SL.Sem
open Idealize.ShloMosaic.ValueIdx Cert.Pool

variable {F : FTy → Type} [FloatOps F]
variable (m : (ℓ : Loc nD τ sig) → Buf (Elt F) ℓ)

/-- The tile of edges point `n` works on. -/
abbrev tileOf (n : ℕ) : Fin 8 := ⟨n % 8, Nat.mod_lt _ (by norm_num)⟩

/-- The vertex row that row `p` of point `n`'s tiles is (reduced below 4096 so that it is a row for every `n`; at a
    grid point nothing is reduced). -/
abbrev rowOf (n : ℕ) (p : Fin 512) : Fin 4096 := ⟨(512 * (n / 8) + p.val) % 4096, Nat.mod_lt _ (by norm_num)⟩

/-- The block indices of the four windows at a point, decided once over the grid. -/
theorem index_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The three input tiles at a point and the three argument arrays, each at its literal type. -/
abbrev atile (c : Dev nD) (t : Fin cfg0.N) : Vec F S512x4096 .f32 := iblk m c 0 t
abbrev etile (c : Dev nD) (t : Fin cfg0.N) : Vec F S4096x32 .f32 := iblk m c 1 t
abbrev vtile (c : Dev nD) (t : Fin cfg0.N) : Vec F S512x32 .f32 := iblk m c 2 t
abbrev aarr (c : Dev nD) : Vec F S4096x32768 .f32 := V m c main_arg4
abbrev earr (c : Dev nD) : Vec F S32768x32 .f32 := V m c main_arg1
abbrev varr (c : Dev nD) : Vec F S4096x32 .f32 := V m c main_arg0

/-- The incidence tile at `(p, k)`. -/
theorem atile_apply (c : Dev nD) (t : Fin cfg0.N) (p : Fin 512) (k : Fin 4096) :
    atile m c t (ix2 p k) = aarr m c (ix2 (rowOf t.val p) (edge (tileOf t.val) k)) := by
  obtain ⟨e0, e1, -⟩ := index_facts t
  have hN : t.val < 64 := lt_of_lt_of_eq t.isLt (show cfg0.N = 64 from N_0)
  have hp : p.val < 512 := p.isLt
  show V m c main_arg4 (((cfg0.win 0).blk t).view.emb (ix2 p k)) = V m c main_arg4 _
  refine congrArg (V m c main_arg4) (funext fun a => Fin.ext ?_)
  match a with
  | ⟨0, _⟩ => show win0_0.index t (0 : Fin 2) * 512 + 1 * p.val = (512 * (t.val / 8) + p.val) % 4096; omega
  | ⟨1, _⟩ => show win0_0.index t (1 : Fin 2) * 4096 + 1 * k.val = 4096 * (t.val % 8) + k.val; omega

/-- The edge-feature tile at `(k, q)`. -/
theorem etile_apply (c : Dev nD) (t : Fin cfg0.N) (k : Fin 4096) (q : Fin 32) :
    etile m c t (ix2 k q) = earr m c (ix2 (edge (tileOf t.val) k) q) := by
  obtain ⟨-, -, e0, e1, -⟩ := index_facts t
  show V m c main_arg1 (((cfg0.win 1).blk t).view.emb (ix2 k q)) = V m c main_arg1 _
  refine congrArg (V m c main_arg1) (funext fun a => Fin.ext ?_)
  match a with
  | ⟨0, _⟩ => show win0_1.index t (0 : Fin 2) * 4096 + 1 * k.val = 4096 * (t.val % 8) + k.val; omega
  | ⟨1, _⟩ => show win0_1.index t (1 : Fin 2) * 32 + 1 * q.val = q.val; omega

/-- The vertex tile at `(p, q)`. -/
theorem vtile_apply (c : Dev nD) (t : Fin cfg0.N) (p : Fin 512) (q : Fin 32) :
    vtile m c t (ix2 p q) = varr m c (ix2 (rowOf t.val p) q) := by
  obtain ⟨-, -, -, -, e0, e1, -⟩ := index_facts t
  have hN : t.val < 64 := lt_of_lt_of_eq t.isLt (show cfg0.N = 64 from N_0)
  have hp : p.val < 512 := p.isLt
  show V m c main_arg0 (((cfg0.win 2).blk t).view.emb (ix2 p q)) = V m c main_arg0 _
  refine congrArg (V m c main_arg0) (funext fun a => Fin.ext ?_)
  match a with
  | ⟨0, _⟩ => show win0_2.index t (0 : Fin 2) * 512 + 1 * p.val = (512 * (t.val / 8) + p.val) % 4096; omega
  | ⟨1, _⟩ => show win0_2.index t (1 : Fin 2) * 32 + 1 * q.val = q.val; omega

/-- Where the output tile's entry `j` goes in the result array. -/
theorem otile_emb (t : Fin cfg0.N) (j : S512x32.Idx) :
    ((cfg0.win 3).blk t).view.emb j = ix2 (rowOf t.val (j 0)) (j 1) := by
  obtain ⟨-, -, -, -, -, -, e0, e1⟩ := index_facts t
  have hN : t.val < 64 := lt_of_lt_of_eq t.isLt (show cfg0.N = 64 from N_0)
  have hp : (j 0).val < 512 := (j 0).isLt
  refine funext fun a => Fin.ext ?_
  match a with
  | ⟨0, _⟩ => show win0_3.index t (0 : Fin 2) * 512 + 1 * (j 0).val = (512 * (t.val / 8) + (j 0).val) % 4096; omega
  | ⟨1, _⟩ => show win0_3.index t (1 : Fin 2) * 32 + 1 * (j 1).val = (j 1).val; omega

/-- An entry of the result array lies in point `t`'s output tile iff each coordinate is in the tile's range. -/
theorem mem_otile (t : Fin cfg0.N) (i : S4096x32.Idx) :
    i ∈ ((cfg0.win 3).blk t).view.set ↔ ∀ a : Fin 2, win0_3.index t a * S512x32.size a ≤ (i a).val ∧ (i a).val < win0_3.index t a * S512x32.size a + S512x32.size a := by
  show i ∈ ((View.whole main_v0).slice (win0_3.rect t)).set ↔ _
  rw [View.set_slice_whole, Rect.mem_set_unit]
  exact Iff.rfl

/-- Every entry of the result array lies in the output tile of the last point of its row of tiles, which writes back. -/
theorem covered (i : S4096x32.Idx) :
    ∃ t : Fin cfg0.N, (cfg0.win 3).flush t = true ∧ i ∈ ((cfg0.win 3).blk t).view.set := by
  have hi0 : (i 0).val < 4096 := (i 0).isLt
  have hi1 : (i 1).val < 32 := (i 1).isLt
  have hN : cfg0.N = 64 := N_0
  let t : Fin cfg0.N := ⟨8 * ((i 0).val / 512) + 7, by omega⟩
  have ht : t.val = 8 * ((i 0).val / 512) + 7 := rfl
  obtain ⟨-, -, -, -, -, -, e0, e1⟩ := index_facts t
  refine ⟨t, (flush0_3 t).mpr (by omega), ?_⟩
  rw [mem_otile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 32 ≤ (i 1).val ∧ (i 1).val < win0_3.index t (1 : Fin 2) * 32 + 32; omega

end Cert.KernelIdeal.PoolBlocks

end
-- ==== Proof.PoolAcc.lean ====
/-
  The accumulator over a row of tiles, and what the row's last point writes out. Within a row of eight points the
  accumulator is reset to zero at the first point and gains, at every point, the product of that point's incidence tile
  with its edge-feature tile; so after the point at offset `j` in its row it holds, entry by entry, zero plus the
  partial products of the row's first `j + 1` tiles of edges. At the row's last point the output tile is the vertex tile
  plus the accumulator, and the eight partial products add up to the product over all 32768 edges: the output tile's
  entry `(p, q)` is the pooled value at the vertex row it goes back to.
-/
import proofs.«135969_j1529008357760_1_alg».proof.Proof.Gen.KernelIdeal.Value
import proofs.«135969_j1529008357760_1_alg».proof.Proof.PoolPayload
import proofs.«135969_j1529008357760_1_alg».proof.Proof.PoolPieces
import proofs.«135969_j1529008357760_1_alg».proof.Proof.PoolBlocks

noncomputable section

namespace Cert.KernelIdeal.PoolAcc

open Cert.KernelIdeal Cert.KernelIdeal.Gen Idealize.ShloMosaic Idealize.ShloMosaic.TcCoe Idealize.SL.Sem
open Idealize.ShloMosaic.ValueIdx Cert.Pool
open Cert.KernelIdeal.PoolBlocks Cert.KernelIdeal.PoolBody Cert.KernelIdeal.PoolPieces Cert.KernelIdeal.Value

variable (m : (ℓ : Loc nD τ sig) → Buf (Elt Ideal) ℓ)

/-- What point `n` adds to the accumulator at entry `i`: row `i 0` of its incidence tile times column `i 1` of its
    edge-feature tile, read off the two arrays. -/
def addend (c : Dev nD) (n : ℕ) (i : S512x32.Idx) : EReal :=
  ∑ k : Fin 4096, aarr m c (ix2 (rowOf n (i 0)) (edge (tileOf n) k)) * earr m c (ix2 (edge (tileOf n) k) (i 1))

/-- The update at point `n`, at an entry: what the accumulator held plus the point's addend. -/
theorem update_at (c : Dev nD) (n : ℕ) (h : n < cfg0.N) (acc : Vec Ideal S512x32 .f32) (i : S512x32.Idx) :
    k0_pay2 (F := Ideal) (atile m c ⟨n, h⟩) (etile m c ⟨n, h⟩) acc i = acc i + addend m c n i := by
  obtain ⟨p, q, rfl⟩ : ∃ (p : Fin 512) (q : Fin 32), i = ix2 p q := ⟨i 0, i 1, eq_ix2 i⟩
  refine (update_apply (atile m c ⟨n, h⟩) (etile m c ⟨n, h⟩) acc p q).trans ?_
  refine congrArg (acc (ix2 p q) + ·) (Finset.sum_congr rfl fun k _ => ?_)
  exact congrArg₂ (· * ·) (atile_apply m c ⟨n, h⟩ p k) (etile_apply m c ⟨n, h⟩ k q)

/-- At the first point of a row the accumulator ends at the update of the zero tile, whatever it held. -/
theorem scratch_first (c : Dev nD) (n : ℕ) (h : n < cfg0.N) (h0 : n % 8 = 0) (acc : Vec Ideal S512x32 .f32) :
    scAt0_0 m c n h acc = k0_pay2 (F := Ideal) (atile m c ⟨n, h⟩) (etile m c ⟨n, h⟩) (k0_pay1 (F := Ideal)) := by
  have h1 : ¬n % 8 = 7 := by omega
  unfold scAt0_0
  rw [dif_pos h0, dif_neg h1]
  exact acc_reset (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) ((hcond0_0 (⟨n, h⟩ : Fin cfg0.N)).mpr h0) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N))

/-- At every other point it ends at the update of what it held. -/
theorem scratch_next (c : Dev nD) (n : ℕ) (h : n < cfg0.N) (h0 : ¬n % 8 = 0) (acc : Vec Ideal S512x32 .f32) :
    scAt0_0 m c n h acc = k0_pay2 (F := Ideal) (atile m c ⟨n, h⟩) (etile m c ⟨n, h⟩) acc := by
  unfold scAt0_0
  rw [dif_neg h0]
  by_cases h1 : n % 8 = 7
  · rw [dif_pos h1]
    exact acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun h' => h0 ((hcond0_0 (⟨n, h⟩ : Fin cfg0.N)).mp h')) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) acc
  · rw [dif_neg h1]
    exact acc_step (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) (fun h' => h0 ((hcond0_0 (⟨n, h⟩ : Fin cfg0.N)).mp h')) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N)) acc

/-- After point `t` the accumulator holds zero plus the addends of its row's points up to `t`. -/
theorem acc_after (c : Dev nD) (t : Fin cfg0.N) (i : S512x32.Idx) :
    (outsAt0 m c t.val t.isLt).2 i = 0 + ∑ s ∈ Finset.range (t.val % 8 + 1), addend m c (8 * (t.val / 8) + s) i := by
  have hN : cfg0.N = 64 := N_0
  have ht : t.val < 64 := lt_of_lt_of_eq t.isLt hN
  rw [soutsAt0_0_eq]
  exact Pipeline.accAt_add_apply (ι := S512x32.Idx) (β := EReal)
    (fun n h => scAt0_0 m c n h (VS0_0.read (Elt Ideal) VS0_0.junk)) (scAt0_0 m c) (fun _ => 0) (addend m c)
    (8 * (t.val / 8)) 7
    (fun h i => by
      rw [scratch_first m c _ h (Nat.mul_mod_right 8 _), update_at, reset_apply])
    (fun n h acc i hb he => by
      rw [scratch_next m c n h (by omega), update_at])
    (t.val % 8) (by omega) _ i

/-- At the last point of a row the output tile is the vertex tile plus the accumulator the point leaves. -/
theorem out_eq (c : Dev nD) (t : Fin cfg0.N) (h1 : t.val % 8 = 7) :
    (outsAt0 m c t.val t.isLt).1 = k0_pay3 (F := Ideal) (vtile m c t) (outsAt0 m c t.val t.isLt).2 := by
  have h0 : ¬t.val % 8 = 0 := by omega
  rw [outsAt0_C m c t h0 h1]
  dsimp only
  rw [out_last (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h1) (iblk m c 0 t) (iblk m c 1 t) (iblk m c 2 t) (outsAt0 m c (t.val - 1) (Nat.lt_of_le_of_lt (Nat.sub_le _ _) t.isLt)).2,
    acc_last (F := Ideal) c (grid0.coords t) (ms0_0 t) (hs0_0 t) (ms0_1 t) (hs0_1 t) (ms0_2 t) (hs0_2 t) (ms0_3 t) (hs0_3 t) scM0_0 (Memref.isWhole_whole _) (fun h' => h0 ((hcond0_0 t).mp h')) ((hcond0_1 t).mpr h1) (iblk m c 0 t) (iblk m c 1 t) (iblk m c 2 t) (outsAt0 m c (t.val - 1) (Nat.lt_of_le_of_lt (Nat.sub_le _ _) t.isLt)).2]

/-- The addend of the point at offset `s` in `t`'s row is the partial product over tile `s` of edges, at `t`'s rows. -/
theorem addend_row (c : Dev nD) (t : Fin cfg0.N) (s : Fin 8) (p : Fin 512) (q : Fin 32) :
    addend m c (8 * (t.val / 8) + s.val) (ix2 p q)
      = ∑ k : Fin 4096, aarr m c (ix2 (rowOf t.val p) (edge s k)) * earr m c (ix2 (edge s k) q) := by
  have hs : s.val < 8 := s.isLt
  have e1 : tileOf (8 * (t.val / 8) + s.val) = s := Fin.ext (by show (8 * (t.val / 8) + s.val) % 8 = s.val; omega)
  have e2 : rowOf (8 * (t.val / 8) + s.val) p = rowOf t.val p := Fin.ext (by
    show (512 * ((8 * (t.val / 8) + s.val) / 8) + p.val) % 4096 = (512 * (t.val / 8) + p.val) % 4096
    have : (8 * (t.val / 8) + s.val) / 8 = t.val / 8 := by omega
    rw [this])
  unfold addend
  show ∑ k : Fin 4096, aarr m c (ix2 (rowOf (8 * (t.val / 8) + s.val) p) (edge (tileOf (8 * (t.val / 8) + s.val)) k)) * earr m c (ix2 (edge (tileOf (8 * (t.val / 8) + s.val)) k) q) = _
  rw [e1, e2]

/-- The output tile of a row's last point, at an entry: the pooled value at the vertex row the entry goes back to. -/
theorem out_last_apply (c : Dev nD) (t : Fin cfg0.N) (h1 : t.val % 8 = 7) (j : S512x32.Idx) :
    (outsAt0 m c t.val t.isLt).1 j = pooled (varr m c) (earr m c) (aarr m c) (ix2 (rowOf t.val (j 0)) (j 1)) := by
  obtain ⟨p, q, rfl⟩ : ∃ (p : Fin 512) (q : Fin 32), j = ix2 p q := ⟨j 0, j 1, eq_ix2 j⟩
  rw [out_eq m c t h1, epilogue_apply, acc_after, h1, zero_add]
  show vtile m c t (ix2 p q) + _ = varr m c (ix2 (rowOf t.val p) q) + ∑ K : Fin 32768, aarr m c (ix2 (rowOf t.val p) K) * earr m c (ix2 K q)
  rw [vtile_apply]
  refine congrArg (varr m c (ix2 (rowOf t.val p) q) + ·) ?_
  exact sum_edges_range (fun K => aarr m c (ix2 (rowOf t.val p) K) * earr m c (ix2 K q))
    (fun s => addend m c (8 * (t.val / 8) + s) (ix2 p q)) (fun s => addend_row m c t s p q)

end Cert.KernelIdeal.PoolAcc

end
-- ==== Proof.PoolRun.lean ====
/-
  The kernel's result array after the run. Only the last point of each row of tiles writes its output tile back, and
  what it writes is the pooled value at the rows the tile covers; those eight tiles cover the result array. So after the
  run the result array is the pooled vertex features, a function of the three argument arrays, and the arguments are
  unchanged.
-/
import proofs.«135969_j1529008357760_1_alg».proof.Proof.PoolAcc

noncomputable section

namespace Cert.KernelIdeal.PoolRun

open Cert.KernelIdeal Cert.KernelIdeal.Gen Idealize.ShloMosaic Idealize.ShloMosaic.TcCoe Idealize.SL.Sem
open Idealize.ShloMosaic.Pipeline (Dat)
open Idealize.ShloMosaic.ValueIdx Cert.Pool
open Cert.KernelIdeal.PoolBlocks Cert.KernelIdeal.PoolAcc Cert.KernelIdeal.Value

variable (m : (ℓ : Loc nD τ sig) → Buf (Elt Ideal) ℓ) (ρ : Dev nD → PrngReg)

/-- What a writing point writes back is its tile of the pooled vertex features. -/
theorem written_eq (c : Dev nD) (t : Fin cfg0.N) (hf : (cfg0.win 3).flush t = true) :
    (dats m 0 c).flushed 3 t = ((cfg0.win 3).blk t).view.read (Elt Ideal) (pooled (varr m c) (earr m c) (aarr m c)) := by
  have h1 : t.val % 8 = 7 := (flush0_3 t).mp hf
  rw [flushed3]
  funext j
  show (outsAt0 m c t.val t.isLt).1 j = pooled (varr m c) (earr m c) (aarr m c) (((cfg0.win 3).blk t).view.emb j)
  rw [otile_emb]
  exact out_last_apply m c t h1 j

/-- The result array after the run. -/
theorem result_array (c : Dev nD) : (dats m 0 c).arrAt 3 cfg0.N = pooled (varr m c) (earr m c) (aarr m c) :=
  (dats m 0 c).arrAt_eq_of_cover 3 (pooled (varr m c) (earr m c) (aarr m c)) (written_eq m c) covered

/-- Every weakly fair execution ends with the result array at the pooled vertex features of the argument arrays and
    the arguments as they were. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (run_blocks m ρ)

end Cert.KernelIdeal.PoolRun

end
-- ==== Proof.PoolRef.lean ====
/-
  The reference computes the same function: the incidence matrix times the edge features, a sum over all 32768 edges at
  each entry, added to the vertex features.
-/
import proofs.«135969_j1529008357760_1_alg».proof.Proof.Gen.ReferenceIdeal.Read
import proofs.«135969_j1529008357760_1_alg».proof.Proof.PoolSpec

noncomputable section

namespace Cert.ReferenceIdeal.PoolRef

open Cert.ReferenceIdeal Cert.ReferenceIdeal.Gen Idealize.ShloMosaic Idealize.ShloMosaic.ValueIdx Cert.Pool

/-- The reference's last stage is the pooled vertex features of its arguments. -/
theorem result_eq (x0 : (⟨S4096x32, .f32⟩ : BufTy).Contents (Elt Ideal)) (x1 : (⟨S32768x32, .f32⟩ : BufTy).Contents (Elt Ideal))
    (x4 : (⟨S4096x32768, .f32⟩ : BufTy).Contents (Elt Ideal)) :
    Read.val_main_v1 (F := Ideal) x0 x1 x4 = pooled x0 x1 x4 := by
  funext i
  rw [Read.val_main_v1_apply, Read.val_main_v0_apply]
  have el : ∀ k : Fin 32768, Read.lidx_main_v0 i k = ix2 (i 0) k := fun k => funext fun a => by
    match a with
    | ⟨0, _⟩ => rfl
    | ⟨1, _⟩ => rfl
  have er : ∀ k : Fin 32768, Read.ridx_main_v0 i k = ix2 k (i 1) := fun k => funext fun a => by
    match a with
    | ⟨0, _⟩ => rfl
    | ⟨1, _⟩ => rfl
  simp only [el, er]
  rfl

end Cert.ReferenceIdeal.PoolRef

end
-- ==== Proof.lean ====
/-
  The kernel adds to the vertex features (4096 × 32) the product of the incidence matrix (4096 × 32768) with the edge
  features (32768 × 32), on an 8 × 8 grid: for each of eight rows of vertex tiles it walks the eight tiles of 4096
  edges, accumulating the partial products in a carried 512 × 32 tile that it resets at the row's first point, and at
  the row's last point writes the vertex tile plus the accumulator to the result. The reference is one whole product
  added to the vertex features. Over the extended reals both give, at vertex `r` and feature `q`,
  `v r q + Σ_K a r K · e K q`: the narrowing of the tiles to bf16 is the identity there, a product into a zero
  accumulator is the plain sum, and the eight partial sums add up to the whole sum because extended-real addition is
  commutative and associative (no finiteness of the inputs is used). The three frames are the generated ones (the
  reference's is its generated run with the result dropped); the idealization rewrote nothing, so `preserves` is
  trivial; the other four results are arguments passed through unchanged.
-/
import proofs.«135969_j1529008357760_1_alg».proof.Defs
import proofs.«135969_j1529008357760_1_alg».proof.Proof.Gen.Kernel
import proofs.«135969_j1529008357760_1_alg».proof.Proof.Gen.Kernel.Skeleton
import proofs.«135969_j1529008357760_1_alg».proof.Proof.Gen.Kernel.Launch
import proofs.«135969_j1529008357760_1_alg».proof.Proof.Gen.Kernel.Points
import proofs.«135969_j1529008357760_1_alg».proof.Proof.Gen.Kernel.Frame
import proofs.«135969_j1529008357760_1_alg».proof.Proof.Gen.KernelIdeal
import proofs.«135969_j1529008357760_1_alg».proof.Proof.Gen.KernelIdeal.Skeleton
import proofs.«135969_j1529008357760_1_alg».proof.Proof.Gen.KernelIdeal.Launch
import proofs.«135969_j1529008357760_1_alg».proof.Proof.Gen.KernelIdeal.Points
import proofs.«135969_j1529008357760_1_alg».proof.Proof.Gen.KernelIdeal.Frame
import proofs.«135969_j1529008357760_1_alg».proof.Proof.Gen.ReferenceIdeal
import proofs.«135969_j1529008357760_1_alg».proof.Proof.Gen.Pre_finite_inputs
import proofs.«135969_j1529008357760_1_alg».proof.Proof.Gen.KernelIdeal.Value
import proofs.«135969_j1529008357760_1_alg».proof.Proof.Gen.ReferenceIdeal.Run
import proofs.«135969_j1529008357760_1_alg».proof.Proof.Gen.ReferenceIdeal.Read
import proofs.«135969_j1529008357760_1_alg».proof.Proof.PoolRun
import proofs.«135969_j1529008357760_1_alg».proof.Proof.PoolRef
import Idealize.ShloMosaic.Adequacy
import Idealize.ShloMosaic.Init

noncomputable section

namespace Cert.Proof

open Idealize.ShloMosaic Idealize.SL.Sem Cert.Pool

/-- The reference runs and keeps its arguments: its generated run, the result forgotten. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- Both idealized programs end with the pooled vertex features of arguments that agree, and pass the other four
    arguments through. -/
theorem algebraic : Cert.algebraic_KernelIdeal_ReferenceIdeal := by
  intro m ρ m' ρ' _ hagree
  refine ⟨fun c => pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4), ?_, ?_⟩
  · exact (θ_run Cert.KernelIdeal.defs _ _).mono
      (fun _ h c => ⟨(h c).1, (h c).2.2.1, (h c).2.2.2.1, (h c).2.2.2.2.1, (h c).2.2.2.2.2, (h c).2⟩)
      (Cert.KernelIdeal.PoolRun.run m ρ)
  · refine (θ_run Cert.ReferenceIdeal.defs _ _).mono (fun _ h c => ⟨?_, (h c).2.1.trans (hagree c).2.1,
      (h c).2.2.1.trans (hagree c).2.2.1, (h c).2.2.2.1.trans (hagree c).2.2.2.1,
      (h c).2.2.2.2.1.trans (hagree c).2.2.2.2, (h c).2.2.2.2.2⟩)
      (Cert.ReferenceIdeal.Value.run (F := Ideal) m' ρ')
    rw [(h c).1, Cert.ReferenceIdeal.Read.val_main_v1_eq, Cert.ReferenceIdeal.PoolRef.result_eq,
      (hagree c).1, (hagree c).2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
